-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S8x512x512 : Shape := ⟨3, ![8, 512, 512]⟩
abbrev S8x512 : Shape := ⟨2, ![8, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S16384x512 .f32) (main_arg1 : IVec S16384 32) (main_arg2 : FVec F S8x512x512 .f32) (main_arg3 : FVec F S8x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S8x512x512 .f32 := Host.absf main_arg2
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg3
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S16384x512 : Shape := ⟨2, ![16384, 512]⟩
abbrev S16384 : Shape := ⟨1, ![16384]⟩
abbrev S8x512x512 : Shape := ⟨3, ![8, 512, 512]⟩
abbrev S8x512 : Shape := ⟨2, ![8, 512]⟩
abbrev S16384x1 : Shape := ⟨2, ![16384, 1]⟩
abbrev S8x1x512 : Shape := ⟨3, ![8, 1, 512]⟩
abbrev S1024x512 : Shape := ⟨2, ![1024, 512]⟩
abbrev S1024x1 : Shape := ⟨2, ![1024, 1]⟩
abbrev S1x512x512 : Shape := ⟨3, ![1, 512, 512]⟩
abbrev S1x1x512 : Shape := ⟨3, ![1, 1, 512]⟩
abbrev S512x512 : Shape := ⟨2, ![512, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S8x512x512, .f32⟩
  | .hbm, ⟨3, _⟩ => ⟨S8x512, .f32⟩
  | .hbm, ⟨4, _⟩ => ⟨S16384x1, .i32⟩
  | .hbm, ⟨5, _⟩ => ⟨S8x1x512, .f32⟩
  | .hbm, ⟨6, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S1x512x512, .f32⟩
  | .local _ .vmem, ⟨5, _⟩ => ⟨S1x512x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  shapeCasts_S8x512_S8x1x512 : S8x512.ShapeCasts S8x1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x512 : S1024x1.Broadcasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x512x512.size a
  hwx0_2 : ∀ i : grid0.Coords, EltTy.bits .f32 = 32 ∨ (Rect.block (s := S8x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x512.size a
  hwx0_3 : ∀ i : grid0.Coords, EltTy.bits .f32 = 32 ∨ (Rect.block (s := S8x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .f32 = 32 ∨ (Rect.block (s := S16384x512) S1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S8x512x512 : Shape := ⟨3, ![8, 512, 512]⟩
abbrev S8x512 : Shape := ⟨2, ![8, 512]⟩
abbrev S1x16384 : Shape := ⟨2, ![1, 16384]⟩
abbrev S8 : Shape := ⟨1, ![8]⟩
abbrev S8x1 : Shape := ⟨2, ![8, 1]⟩
abbrev S8x16384 : Shape := ⟨2, ![8, 16384]⟩
abbrev S1x16384x512 : Shape := ⟨3, ![1, 16384, 512]⟩
abbrev S8x16384x1 : Shape := ⟨3, ![8, 16384, 1]⟩
abbrev S8x16384x512 : Shape := ⟨3, ![8, 16384, 512]⟩
abbrev S8x1x512 : Shape := ⟨3, ![8, 1, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S8x512x512, .f32⟩
  | .hbm, ⟨3, _⟩ => ⟨S8x512, .f32⟩
  | .hbm, ⟨4, _⟩ => ⟨S1x16384, .i32⟩
  | .hbm, ⟨5, _⟩ => ⟨S8, .i32⟩
  | .hbm, ⟨6, _⟩ => ⟨S8x1, .i32⟩
  | .hbm, ⟨7, _⟩ => ⟨S8x16384, .i32⟩
  | .hbm, ⟨8, _⟩ => ⟨S8x16384, .i32⟩
  | .hbm, ⟨9, _⟩ => ⟨S8x16384, .i1⟩
  | .hbm, ⟨10, _⟩ => ⟨S8x16384, .f32⟩
  | .hbm, ⟨11, _⟩ => ⟨S1x16384x512, .f32⟩
  | .hbm, ⟨12, _⟩ => ⟨S8x16384x1, .f32⟩
  | .hbm, ⟨13, _⟩ => ⟨S8x16384x512, .f32⟩
  | .hbm, ⟨14, _⟩ => ⟨S8x16384x512, .f32⟩
  | .hbm, ⟨15, _⟩ => ⟨S8x16384x512, .f32⟩
  | .hbm, ⟨16, _⟩ => ⟨S8x16384x512, .f32⟩
  | .hbm, ⟨17, _⟩ => ⟨S8x1x512, .f32⟩
  | .hbm, ⟨18, _⟩ => ⟨S8x16384x512, .f32⟩
  | .hbm, ⟨19, _⟩ => ⟨S8x16384x512, .f32⟩
  | .hbm, ⟨20, _⟩ => ⟨S_, .f32⟩
  | .hbm, ⟨21, _⟩ => ⟨S8x16384x512, .f32⟩
  | .hbm, ⟨22, _⟩ => ⟨S8x16384x512, .f32⟩
  | .hbm, ⟨23, _⟩ => ⟨S_, .f32⟩
  | .hbm, ⟨24, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S8_S8x1_0 : S8.BroadcastsInDim S8x1 (![0] : Fin 1 → Fin S8x1.rank)
  bcast_S1x16384_S8x16384_0_1 : S1x16384.BroadcastsInDim S8x16384 (![0, 1] : Fin 2 → Fin S8x16384.rank)
  bcast_S8x1_S8x16384_0_1 : S8x1.BroadcastsInDim S8x16384 (![0, 1] : Fin 2 → Fin S8x16384.rank)
  bcast_S16384x512_S1x16384x512_1_2 : S16384x512.BroadcastsInDim S1x16384x512 (![1, 2] : Fin 2 → Fin S1x16384x512.rank)
  bcast_S8x16384_S8x16384x1_0_1 : S8x16384.BroadcastsInDim S8x16384x1 (![0, 1] : Fin 2 → Fin S8x16384x1.rank)
  bcast_S1x16384x512_S8x16384x512_0_1_2 : S1x16384x512.BroadcastsInDim S8x16384x512 (![0, 1, 2] : Fin 3 → Fin S8x16384x512.rank)
  bcast_S8x16384x1_S8x16384x512_0_1_2 : S8x16384x1.BroadcastsInDim S8x16384x512 (![0, 1, 2] : Fin 3 → Fin S8x16384x512.rank)
  bcast_S8x512_S8x1x512_0_2 : S8x512.BroadcastsInDim S8x1x512 (![0, 2] : Fin 2 → Fin S8x1x512.rank)
  bcast_S8x1x512_S8x16384x512_0_1_2 : S8x1x512.BroadcastsInDim S8x16384x512 (![0, 1, 2] : Fin 3 → Fin S8x16384x512.rank)
  bcast_S_S8x16384x512 : S_.BroadcastsInDim S8x16384x512 (![] : Fin 0 → Fin S8x16384x512.rank)
  reducesTo_S8x16384x512_S16384x512_d0 : S8x16384x512.ReducesTo [0] S16384x512
  h_S_ : 0 < S_.numel
  dot_S8x16384x512_S8x512x512_S8x16384x512_2_1_1_2_0_0_wf : DotDims.WF S8x16384x512 S8x512x512 S8x16384x512 [2] [1] [1] [2] [0] [0]

variable [Facts₀]

def dot_S8x16384x512_S8x512x512_S8x16384x512_2_1_1_2_0_0 : DotDims S8x16384x512 S8x512x512 S8x16384x512 where
  lhsContracting := [2]
  rhsContracting := [1]
  lhsNonContracting := [1]
  rhsNonContracting := [2]
  lhsBatch := [0]
  rhsBatch := [0]
  wf := dot_S8x16384x512_S8x512x512_S8x16384x512_2_1_1_2_0_0_wf

class Facts : Prop extends Facts₀ where

variable [Facts]
-- ==== Proof.Spec.lean ====
/-
  The specification.  Every row `n` of `x` carries a condition word; for each of the eight conditions `k`
  the row is kept if its word is `k` and zeroed otherwise, sent through that condition's affine map
  `v ↦ v · W[k] + b[k]`, and clipped below at zero; the eight clipped rows are added.  Over the extended
  reals the result at `(n, e)` is

      0 + ∑ₖ max (∑_d (x[n,d] · [cond[n] = k]) · W[k,d,e] + b[k,e]) 0 .

  A zeroed row still contributes `max b[k,e] 0`, so nothing is dropped from the sum over `k`.
-/
import Idealize.ShloMosaic.PureOps.Ideal
import Idealize.ShloMosaic.PureOps.Ideal.Laws
import Idealize.ShloMosaic.Lib.ValueIdx

noncomputable section

namespace Cert.CondSum

open Idealize.ShloMosaic Idealize.ShloMosaic.ValueIdx

abbrev SX : Shape := ⟨2, ![16384, 512]⟩
abbrev SC : Shape := ⟨1, ![16384]⟩
abbrev SW : Shape := ⟨3, ![8, 512, 512]⟩
abbrev SB : Shape := ⟨2, ![8, 512]⟩

/-- The weight of a row whose condition word is `w`, for condition `k`: one if `w` is `k`, zero otherwise
    (the comparison's bit read as an unsigned integer). -/
def sel (w : BitVec 32) (k : Nat) : EReal :=
  FloatOps.uitofp (F := Ideal) .f32 (IntOp.cmpi .eq w (BitVec.ofNat 32 k))

/-- A single bit widened to a word and read as a SIGNED integer is the bit read as an unsigned one:
    the widened word is 0 or 1, never negative. -/
theorem signed_widened_bit (b : BitVec 1) :
    FloatOps.sitofp (F := Ideal) .f32 (b.setWidth 32) = FloatOps.uitofp (F := Ideal) .f32 b := by
  by_cases h : b = 1#1
  · subst h; rfl
  · rw [eq_zero_of_ne_one h]; rfl

theorem sel_signed (w : BitVec 32) (k : Nat) :
    FloatOps.sitofp (F := Ideal) .f32 ((IntOp.cmpi .eq w (BitVec.ofNat 32 k)).setWidth 32) = sel w k :=
  signed_widened_bit _

/-- Condition `k`'s contribution at row `n`, column `e`. -/
def contrib (x : FVec Ideal SX .f32) (cnd : IVec SC 32) (W : FVec Ideal SW .f32) (b : FVec Ideal SB .f32)
    (k : Fin 8) (n : Fin 16384) (e : Fin 512) : EReal :=
  max ((∑ d : Fin 512, (x (ix2 n d) * sel (cnd (ix1 n)) k.val) * W (ix3 k d e)) + b (ix2 k e))
    (Ideal.ofBits .f32 0x00000000#32)

/-- The whole result. -/
def result (x : FVec Ideal SX .f32) (cnd : IVec SC 32) (W : FVec Ideal SW .f32) (b : FVec Ideal SB .f32) :
    FVec Ideal SX .f32 := fun i =>
  Ideal.ofBits .f32 0x00000000#32 + ∑ k : Fin 8, contrib x cnd W b k (i 0) (i 1)

/-- The same contribution indexed by a natural number (zero past the eight conditions), for sums over a range. -/
def contribN (x : FVec Ideal SX .f32) (cnd : IVec SC 32) (W : FVec Ideal SW .f32) (b : FVec Ideal SB .f32)
    (s : Nat) (n : Fin 16384) (e : Fin 512) : EReal :=
  if h : s < 8 then contrib x cnd W b ⟨s, h⟩ n e else 0

theorem sum_contribN (x : FVec Ideal SX .f32) (cnd : IVec SC 32) (W : FVec Ideal SW .f32) (b : FVec Ideal SB .f32)
    (n : Fin 16384) (e : Fin 512) :
    ∑ s ∈ Finset.range 8, contribN x cnd W b s n e = ∑ k : Fin 8, contrib x cnd W b k n e := by
  rw [Finset.sum_range]
  exact Finset.sum_congr rfl fun k _ => by unfold contribN; rw [dif_pos k.isLt]

end Cert.CondSum

end
-- ==== Proof.RefValue.lean ====
/-
  The reference computes the specification.  Read one operation at a time, its result at `(n, e)` is the
  initial zero plus the sum over the leading axis `k` of `max (⟨masked x, W[k]⟩ + b[k]) 0`; the masked row is
  `x[n,d]` times the comparison of the row's condition word with `k` read as an unsigned integer, which is the
  weight `sel`.  All that is left after the operations are read is to see that the composed index maps pick
  `x[n,d]`, `cond[n]`, `W[k,d,e]` and `b[k,e]`.
-/
import proofs.«136034_j53919019434508_1_alg».proof.Proof.Gen.ReferenceIdeal.Read
import proofs.«136034_j53919019434508_1_alg».proof.Proof.Spec

noncomputable section

namespace Cert.ReferenceIdeal.RefValue

open Cert.ReferenceIdeal Cert.ReferenceIdeal.Read Idealize.ShloMosaic Idealize.ShloMosaic.ValueIdx Cert.CondSum

/-- One condition's slab of the reference, before the sum over conditions, is that condition's contribution. -/
theorem slab_apply (x0 : FVec Ideal S16384x512 .f32) (x1 : IVec S16384 32) (x2 : FVec Ideal S8x512x512 .f32)
    (x3 : FVec Ideal S8x512 .f32) (i : S16384x512.Idx) (k : Fin 8) :
    val_main_v16 (F := Ideal) x0 x1 x2 x3 (idx_main_v17 i k) = contrib x0 x1 x2 x3 k (i 0) (i 1) := by
  rw [val_main_v16_apply, val_main_v15_apply, val_main_v12_apply, val_main_v14_apply, val_main_v13_apply,
    val_main_call0_v0_apply, val_main_call0_cst_apply]
  unfold contrib
  have eb : idx_main_v13 (idx_main_v14 (idx_main_v17 i k)) = ix2 k (i 1) :=
    funext fun a => Fin.ext (by match a with | ⟨0, _⟩ => rfl | ⟨1, _⟩ => rfl)
  rw [eb]
  have es : ∀ d : Fin 512, (val_main_v11 (F := Ideal) x0 x1) (lidx_main_v12 (idx_main_v17 i k) d) * x2 (ridx_main_v12 (idx_main_v17 i k) d)
      = (x0 (ix2 (i 0) d) * sel (x1 (ix1 (i 0))) k.val) * x2 (ix3 k d (i 1)) := fun d => by
    rw [val_main_v11_apply, val_main_v9_apply, val_main_v7_apply, val_main_v10_apply, val_main_v8_apply,
      val_main_v6_apply, val_main_v5_apply, val_main_v3_apply, val_main_v0_apply, val_main_v4_apply,
      val_main_v2_apply, val_main_v1_apply]
    have e0 : idx_main_v7 (idx_main_v9 (lidx_main_v12 (idx_main_v17 i k) d)) = ix2 (i 0) d :=
      funext fun a => Fin.ext (by match a with | ⟨0, _⟩ => rfl | ⟨1, _⟩ => rfl)
    have e1 : idx_main_v0 (idx_main_v3 (idx_main_v8 (idx_main_v10 (lidx_main_v12 (idx_main_v17 i k) d)))) = ix1 (i 0) :=
      funext fun a => Fin.ext (by match a with | ⟨0, _⟩ => rfl)
    have e2 : ridx_main_v12 (idx_main_v17 i k) d = ix3 k d (i 1) :=
      funext fun a => Fin.ext (by match a with | ⟨0, _⟩ => rfl | ⟨1, _⟩ => rfl | ⟨2, _⟩ => rfl)
    rw [e0, e1, e2]
    rfl
  rw [Finset.sum_congr rfl fun d _ => es d]
  rfl

/-- The reference's last stage is the specification. -/
theorem stage_eq_result (x0 : FVec Ideal S16384x512 .f32) (x1 : IVec S16384 32) (x2 : FVec Ideal S8x512x512 .f32)
    (x3 : FVec Ideal S8x512 .f32) :
    val_main_v17 (F := Ideal) x0 x1 x2 x3 = result x0 x1 x2 x3 := by
  funext i
  rw [val_main_v17_apply, val_main_cst_apply]
  unfold result
  rw [Finset.sum_congr rfl fun k _ => slab_apply x0 x1 x2 x3 i k]
  rfl

end Cert.ReferenceIdeal.RefValue

end
-- ==== Proof.Payload.lean ====
/-
  What one grid point adds.  The body's one accumulating store writes, at entry `(p, q)` of the
  1024 × 512 scratch, the scratch's previous entry plus

      max (∑_d (x[p,d] · [cond[p] = c]) · W[d,q] + b[q]) 0

  of the point's four input blocks, `c` the point's coordinate on the second grid axis.  The pieces that are
  not entrywise are read at an index one by one: the mask column broadcast along the rows' entries, the weight
  block with its leading unit axis dropped, the bias row with two unit axes dropped and broadcast down the
  rows, and the matrix product into a zero accumulator as a sum over the contracted axis.  Narrowing the
  two factors to a shorter float format changes nothing over the extended reals.
-/
import proofs.«136034_j53919019434508_1_alg».proof.Proof.Gen.KernelIdeal.Skeleton
import proofs.«136034_j53919019434508_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.CondSum

/-! ## The matrix product at an entry -/

theorem lhs_axis0 (j : S1024x512.Idx) (k : dot_S1024x512_S512x512_S1024x512_1_0_0_1_n_n.contr.Idx) :
    (dot_S1024x512_S512x512_S1024x512_1_0_0_1_n_n.lhsIdx j k 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_axis1 (j : S1024x512.Idx) (k : dot_S1024x512_S512x512_S1024x512_1_0_0_1_n_n.contr.Idx) :
    (dot_S1024x512_S512x512_S1024x512_1_0_0_1_n_n.lhsIdx j k 1).val = (k ⟨0, by decide⟩).val :=
  dot_S1024x512_S512x512_S1024x512_1_0_0_1_n_n.lhsIdx_val_of_single rfl j k
theorem rhs_axis0 (j : S1024x512.Idx) (k : dot_S1024x512_S512x512_S1024x512_1_0_0_1_n_n.contr.Idx) :
    (dot_S1024x512_S512x512_S1024x512_1_0_0_1_n_n.rhsIdx j k 0).val = (k ⟨0, by decide⟩).val :=
  dot_S1024x512_S512x512_S1024x512_1_0_0_1_n_n.rhsIdx_val_of_single rfl j k
theorem rhs_axis1 (j : S1024x512.Idx) (k : dot_S1024x512_S512x512_S1024x512_1_0_0_1_n_n.contr.Idx) :
    (dot_S1024x512_S512x512_S1024x512_1_0_0_1_n_n.rhsIdx j k 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a 1024 × 512 block with a 512 × 512 block into a zero accumulator, at `(p, q)`: row `p` against
    column `q`. -/
theorem product_at (A : FVec Ideal S1024x512 .bf16) (B : FVec Ideal S512x512 .bf16) (p : Fin 1024) (q : Fin 512) :
    matmul dot_S1024x512_S512x512_S1024x512_1_0_0_1_n_n none A B (constant S1024x512 .f32 0x00000000#32) (ix2 p q)
      = ∑ d : Fin 512, A (ix2 p d) * B (ix2 d q) := by
  show FloatOps.matmul dot_S1024x512_S512x512_S1024x512_1_0_0_1_n_n none A B (constant S1024x512 .f32 0x00000000#32) (ix2 p q) = _
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## The layout pieces at an entry -/

/-- The mask column spread along a row: entry `(p, d)` is the column's entry `(p, 0)`. -/
theorem spread_col {α : Type} (v : S1024x1.Idx → α) (p : Fin 1024) (d : Fin 512) :
    broadcastTo S1024x512 v broadcasts_S1024x1_S1024x512 (ix2 p d) = v (ix2 p 0) :=
  broadcastTo_apply v broadcasts_S1024x1_S1024x512 (ix2 p d) (ix2 p 0) (fun a => match a with
    | ⟨0, _⟩ => by show p.val = if (1024 : Nat) = 1 then 0 else p.val; rw [if_neg (by decide)]
    | ⟨1, _⟩ => by show 0 = if (1 : Nat) = 1 then 0 else d.val; rw [if_pos rfl])

/-- The bias row spread down the rows: entry `(p, q)` is the row's entry `(0, q)`. -/
theorem spread_row {α : Type} (v : S1x512.Idx → α) (p : Fin 1024) (q : Fin 512) :
    broadcastTo S1024x512 v broadcasts_S1x512_S1024x512 (ix2 p q) = v (ix2 0 q) :=
  broadcastTo_apply v broadcasts_S1x512_S1024x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The weight block without its leading unit axis: entry `(d, q)` is the block's `(0, d, q)`. -/
theorem weight_at {α : Type} (v : S1x512x512.Idx → α) (d q : Fin 512) :
    shapeCast S512x512 v shapeCasts_S1x512x512_S512x512 (ix2 d q) = v (ix3 0 d q) := by
  rw [shapeCast_dropUnit_apply]
  exact congrArg v (funext fun a => by match a with | ⟨0, _⟩ => rfl | ⟨1, _⟩ => rfl | ⟨2, _⟩ => rfl)

/-- The bias block without its leading unit axis: entry `(0, q)` is the block's `(0, 0, q)`. -/
theorem bias_at {α : Type} (v : S1x1x512.Idx → α) (q : Fin 512) :
    shapeCast S1x512 v shapeCasts_S1x1x512_S1x512 (ix2 0 q) = v (ix3 0 0 q) := by
  rw [shapeCast_dropUnit_apply]
  exact congrArg v (funext fun a => by match a with | ⟨0, _⟩ => rfl | ⟨1, _⟩ => rfl | ⟨2, _⟩ => rfl)

/-! ## The accumulating store's payload at an entry -/

theorem pay_apply (i : grid0.Coords) (v3 : Vec Ideal S1024x512 .f32) (v4 : Vec Ideal S1024x1 .i32)
    (v13 : Vec Ideal S1x512x512 .f32) (v17 : Vec Ideal S1x1x512 .f32) (v23 : Vec Ideal S1024x512 .f32)
    (p : Fin 1024) (q : Fin 512) :
    k0_pay2 (F := Ideal) i v3 v4 v13 v17 v23 (ix2 p q)
      = v23 (ix2 p q) + max ((∑ d : Fin 512, (v3 (ix2 p d) * sel (v4 (ix2 p 0)) (i 1).val) * v13 (ix3 0 d q)) + v17 (ix3 0 0 q))
          (Ideal.ofBits .f32 0x00000000#32) := by
  unfold k0_pay2
  dsimp only
  rw [shapeCast_self, addf_apply, maximumf_apply, addf_apply, product_at, spread_row, bias_at]
  refine congrArg (v23 (ix2 p q) + ·) (congrArg (max · _) (congrArg (· + _) (Finset.sum_congr rfl fun d _ => ?_)))
  rw [truncf_apply, truncf_apply, mulf_apply, spread_col, weight_at, sitofp_apply, extui_apply]
  unfold cmpi
  rw [shapeCast_self]
  exact congrArg (fun z => v3 (ix2 p d) * z * v13 (ix3 0 d q)) (sel_signed _ _)

end Cert.KernelIdeal.Payload

end
-- ==== Proof.Blocks.lean ====
/-
  The four input blocks a grid point sees, as entries of the argument arrays.  The grid is 16 × 8, walked row
  by row, so point `t` sits at row tile `t / 8` and condition `t % 8`.  Its block of `x` is rows
  `1024·(t / 8) … 1024·(t / 8) + 1023`; its block of the condition words is the same rows of the words viewed as
  a column (the host reshape keeps row-major order, so the column's entry `(r, 0)` is word `r`); its block of `W`
  is slab `t % 8`; and its block of the bias is row `t % 8` of `b` viewed with a unit middle axis.
-/
import proofs.«136034_j53919019434508_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The row of `x` that row `p` of point `t`'s block is. -/
def rowOf (t : Fin cfg0.N) (p : Fin 1024) : Fin 16384 :=
  ⟨1024 * (t.val / 8) + p.val, by
    have h := lt_of_lt_of_eq t.isLt (show cfg0.N = 128 from N_0); have := p.isLt; omega⟩

/-- The condition point `t` works on. -/
def condOf (t : Fin cfg0.N) : Fin 8 := ⟨t.val % 8, Nat.mod_lt _ (by decide)⟩

/-! ## The grid's coordinates and the windows' block indices, decided over the 128 points -/

theorem coord1 : ∀ t : Fin cfg0.N, (grid0.coords t 1).val = t.val % 8 :=
  (by decide +kernel : ∀ t : Fin grid0.N, (grid0.coords t 1).val = t.val % 8)
theorem index_x : ∀ t : Fin cfg0.N, win0_0.index t 0 = t.val / 8 ∧ win0_0.index t 1 = 0 :=
  (by decide +kernel : ∀ t : Fin grid0.N, win0_0.index t 0 = t.val / 8 ∧ win0_0.index t 1 = 0)
theorem index_c : ∀ t : Fin cfg0.N, win0_1.index t 0 = t.val / 8 ∧ win0_1.index t 1 = 0 :=
  (by decide +kernel : ∀ t : Fin grid0.N, win0_1.index t 0 = t.val / 8 ∧ win0_1.index t 1 = 0)
theorem index_w : ∀ t : Fin cfg0.N, win0_2.index t 0 = t.val % 8 ∧ win0_2.index t 1 = 0 ∧ win0_2.index t 2 = 0 :=
  (by decide +kernel : ∀ t : Fin grid0.N, win0_2.index t 0 = t.val % 8 ∧ win0_2.index t 1 = 0 ∧ win0_2.index t 2 = 0)
theorem index_b : ∀ t : Fin cfg0.N, win0_3.index t 0 = t.val % 8 ∧ win0_3.index t 1 = 0 ∧ win0_3.index t 2 = 0 :=
  (by decide +kernel : ∀ t : Fin grid0.N, win0_3.index t 0 = t.val % 8 ∧ win0_3.index t 1 = 0 ∧ win0_3.index t 2 = 0)
theorem index_o : ∀ t : Fin cfg0.N, win0_4.index t 0 = t.val / 8 ∧ win0_4.index t 1 = 0 :=
  (by decide +kernel : ∀ t : Fin grid0.N, win0_4.index t 0 = t.val / 8 ∧ win0_4.index t 1 = 0)

/-! ## The two arrays the host reshapes before the region -/

/-- The condition words as the region finds them: the argument viewed as a column. -/
theorem V_cond (c : Dev nD) :
    (V m c main_v0 : S16384x1.Idx → Elt F .i32) = shapeCast S16384x1 (m ((c : Thread nD τ).loc main_arg1)) shapeCasts_S16384_S16384x1 := by
  dsimp only [Gen.V, Gen.hostOps0]; after_results; rfl

/-- The bias as the region finds it: the argument viewed with a unit middle axis. -/
theorem V_bias (c : Dev nD) :
    (V m c main_v1 : S8x1x512.Idx → Elt F .f32) = shapeCast S8x1x512 (m ((c : Thread nD τ).loc main_arg3)) shapeCasts_S8x512_S8x1x512 := by
  dsimp only [Gen.V, Gen.hostOps0]; after_results; rfl

/-- A vector viewed as a column: entry `(r, 0)` is entry `r`. -/
theorem column_at {α : Type} (x : S16384.Idx → α) (r : Fin 16384) :
    shapeCast S16384x1 x shapeCasts_S16384_S16384x1 (ix2 r 0) = x (ix1 r) :=
  shapeCast_apply x _ (ix2 r 0) (ix1 r) (by
    rw [Shape.rowMajor_val_one, Shape.rowMajor_val_two]; show r.val = r.val * 1 + 0; omega)

/-- A matrix viewed with a unit middle axis: entry `(k, 0, q)` is entry `(k, q)`. -/
theorem middle_at {α : Type} (x : S8x512.Idx → α) (k : Fin 8) (q : Fin 512) :
    shapeCast S8x1x512 x shapeCasts_S8x512_S8x1x512 (ix3 k 0 q) = x (ix2 k q) :=
  shapeCast_apply x _ (ix3 k 0 q) (ix2 k q) (by
    rw [Shape.rowMajor_val_two, Shape.rowMajor_val_three]; show k.val * 512 + q.val = (k.val * 1 + 0) * 512 + q.val; omega)

/-! ## The blocks at an entry -/

theorem xblk_at (c : Dev nD) (t : Fin cfg0.N) (p : Fin 1024) (d : Fin 512) :
    (iblk m c 0 t : Vec F S1024x512 .f32) (ix2 p d) = m ((c : Thread nD τ).loc main_arg0) (ix2 (rowOf t p) d) := by
  unfold iblk
  rw [View.read_apply]
  show V m c main_arg0 (((cfg0.win 0).blk t).view.emb (ix2 p d)) = _
  rw [V_main_arg0]
  refine congrArg _ (funext fun a => Fin.ext ?_)
  match a with
  | ⟨0, _⟩ => show win0_0.index t 0 * 1024 + 1 * p.val = 1024 * (t.val / 8) + p.val; rw [(index_x t).1]; omega
  | ⟨1, _⟩ => show win0_0.index t 1 * 512 + 1 * d.val = d.val; rw [(index_x t).2]; omega

theorem cblk_at (c : Dev nD) (t : Fin cfg0.N) (p : Fin 1024) :
    (iblk m c 1 t : Vec F S1024x1 .i32) (ix2 p 0) = m ((c : Thread nD τ).loc main_arg1) (ix1 (rowOf t p)) := by
  unfold iblk
  rw [View.read_apply]
  show (V m c main_v0 : S16384x1.Idx → Elt F .i32) (((cfg0.win 1).blk t).view.emb (ix2 p 0)) = _
  rw [V_cond]
  have e : ((cfg0.win 1).blk t).view.emb (ix2 p 0) = (ix2 (rowOf t p) 0 : S16384x1.Idx) := funext fun a => Fin.ext (by
    match a with
    | ⟨0, _⟩ => show win0_1.index t 0 * 1024 + 1 * p.val = 1024 * (t.val / 8) + p.val; rw [(index_c t).1]; omega
    | ⟨1, _⟩ => show win0_1.index t 1 * 1 + 1 * 0 = 0; rw [(index_c t).2])
  rw [e, column_at]

theorem wblk_at (c : Dev nD) (t : Fin cfg0.N) (d q : Fin 512) :
    (iblk m c 2 t : Vec F S1x512x512 .f32) (ix3 0 d q) = m ((c : Thread nD τ).loc main_arg2) (ix3 (condOf t) d q) := by
  unfold iblk
  rw [View.read_apply]
  show V m c main_arg2 (((cfg0.win 2).blk t).view.emb (ix3 0 d q)) = _
  rw [V_main_arg2]
  refine congrArg _ (funext fun a => Fin.ext ?_)
  match a with
  | ⟨0, _⟩ => show win0_2.index t 0 * 1 + 1 * 0 = t.val % 8; rw [(index_w t).1]; omega
  | ⟨1, _⟩ => show win0_2.index t 1 * 512 + 1 * d.val = d.val; rw [(index_w t).2.1]; omega
  | ⟨2, _⟩ => show win0_2.index t 2 * 512 + 1 * q.val = q.val; rw [(index_w t).2.2]; omega

theorem bblk_at (c : Dev nD) (t : Fin cfg0.N) (q : Fin 512) :
    (iblk m c 3 t : Vec F S1x1x512 .f32) (ix3 0 0 q) = m ((c : Thread nD τ).loc main_arg3) (ix2 (condOf t) q) := by
  unfold iblk
  rw [View.read_apply]
  show (V m c main_v1 : S8x1x512.Idx → Elt F .f32) (((cfg0.win 3).blk t).view.emb (ix3 0 0 q)) = _
  rw [V_bias]
  have e : ((cfg0.win 3).blk t).view.emb (ix3 0 0 q) = (ix3 (condOf t) 0 q : S8x1x512.Idx) := funext fun a => Fin.ext (by
    match a with
    | ⟨0, _⟩ => show win0_3.index t 0 * 1 + 1 * 0 = t.val % 8; rw [(index_b t).1]; omega
    | ⟨1, _⟩ => show win0_3.index t 1 * 1 + 1 * 0 = 0; rw [(index_b t).2.1]
    | ⟨2, _⟩ => show win0_3.index t 2 * 512 + 1 * q.val = q.val; rw [(index_b t).2.2]; omega)
  rw [e, middle_at]

end Cert.KernelIdeal.Blocks

end
-- ==== Proof.Pieces.lean ====
/-
  What each of the three kinds of grid point leaves behind, as values.  A point of the first kind (condition 0)
  clears the scratch and then adds its contribution, so the scratch ends at the accumulating payload over the
  zero block; a point of the second kind adds its contribution to what the point before left; a point of the
  third kind (condition 7) does the same and then copies the scratch into the output block, so both end at the
  accumulating payload over what the point before left.  Every store covers its whole buffer and every load
  reads a whole buffer, so a buffer's contents after the body are its last store's value.
-/
import proofs.«136034_j53919019434508_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that neither clears nor copies out: the scratch ends at the payload over what it held. -/
theorem scratch_B (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x512x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S1024x1 .i32) (x2 : Vec F S1x512x512 .f32) (x3 : Vec F S1x1x512 .f32) (xs0 : Vec F S1024x512 .f32) :
    sout0_B_0 c i arg2 harg2 arg3 harg3 arg4 harg4 arg5 harg5 arg6 harg6 arg7 harg7 hc0 hc1 x0 x1 x2 x3 xs0 = k0_pay2 i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread, View.ld_unit_zero (S := S1024x512) hz2, View.ld_unit_zero (S := S1024x1) hz2, View.ld_unit_zero (S := S1x512x512) hz3, View.ld_unit_zero (S := S1x1x512) hz3]

/-- A point that copies out: the scratch ends at the payload over what it held, -/
theorem scratch_C (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x512x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S1024x1 .i32) (x2 : Vec F S1x512x512 .f32) (x3 : Vec F S1x1x512 .f32) (xs0 : Vec F S1024x512 .f32) :
    sout0_C_0 c i arg2 harg2 arg3 harg3 arg4 harg4 arg5 harg5 arg6 harg6 arg7 harg7 hc0 hc1 x0 x1 x2 x3 xs0 = k0_pay2 i x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread, View.ld_unit_zero (S := S1024x512) hz2, View.ld_unit_zero (S := S1024x1) hz2, View.ld_unit_zero (S := S1x512x512) hz3, View.ld_unit_zero (S := S1x1x512) hz3]

/-- and the output block at the same value: the copy reads the scratch after the accumulating store. -/
theorem out_C (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x512x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S1024x1 .i32) (x2 : Vec F S1x512x512 .f32) (x3 : Vec F S1x1x512 .f32) (xs0 : Vec F S1024x512 .f32) :
    out0_C_4 c i arg2 harg2 arg3 harg3 arg4 harg4 arg5 harg5 arg6 harg6 arg7 harg7 hc0 hc1 x0 x1 x2 x3 xs0 = k0_pay2 i x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readCov_unit_zero (S := S1024x512) _ hz2, View.readAt_eq_ld, harg2.read_unread, harg3.read_unread, harg4.read_unread, harg5.read_unread, harg7.read_unread, View.ld_unit_zero (S := S1024x512) hz2, View.ld_unit_zero (S := S1024x1) hz2, View.ld_unit_zero (S := S1x512x512) hz3, View.ld_unit_zero (S := S1x1x512) hz3]

/-- A point that clears first: the scratch ends at the payload over the zero block. -/
theorem scratch_A (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x512x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S1024x1 .i32) (x2 : Vec F S1x512x512 .f32) (x3 : Vec F S1x1x512 .f32) :
    sout0_A_0 c i arg2 harg2 arg3 harg3 arg4 harg4 arg5 harg5 arg6 harg6 arg7 harg7 hc0 hc1 x0 x1 x2 x3 = k0_pay2 i x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x512) hz2, View.readCov_unit_zero (S := S1024x512) _ hz2]
  simp only [View.readAt_eq_ld, harg2.read_unread, harg3.read_unread, harg4.read_unread, harg5.read_unread, harg7.read_unread, View.ld_unit_zero (S := S1024x512) hz2, View.ld_unit_zero (S := S1024x1) hz2, View.ld_unit_zero (S := S1x512x512) hz3, View.ld_unit_zero (S := S1x1x512) hz3]

end Cert.KernelIdeal.Pieces

end
-- ==== Proof.Accum.lean ====
/-
  The scratch after a run of eight points.  Points `8j, 8j + 1, …, 8j + 7` share row tile `j` and walk through the
  eight conditions.  The first clears the scratch and adds condition 0's contribution; each later one adds its own
  condition's contribution to what the point before left.  So after the last one, entry `(p, e)` of the scratch is

      0 + ∑ₖ contrib k (1024·j + p) e ,

  the specification's value at row `1024·j + p`.  Addition of extended reals is associative, which is all the
  re-bracketing from `((0 + h₀) + h₁) + …` to `0 + (h₀ + h₁ + …)` needs.
-/
import proofs.«136034_j53919019434508_1_alg».proof.Proof.Gen.KernelIdeal.Value
import proofs.«136034_j53919019434508_1_alg».proof.Proof.Spec
import proofs.«136034_j53919019434508_1_alg».proof.Proof.Payload
import proofs.«136034_j53919019434508_1_alg».proof.Proof.Blocks
import proofs.«136034_j53919019434508_1_alg».proof.Proof.Pieces

noncomputable section

namespace Cert.KernelIdeal.Accum

open Cert.KernelIdeal Cert.KernelIdeal.Gen Cert.KernelIdeal.Value
open Idealize.ShloMosaic Idealize.ShloMosaic.TcCoe Idealize.SL.Sem Idealize.ShloMosaic.ValueIdx
open Cert.CondSum Cert.KernelIdeal.Blocks Cert.KernelIdeal.Payload Cert.KernelIdeal.Pieces

variable (m : (ℓ : Loc nD τ sig) → Buf (Elt Ideal) ℓ)

/-- The four arguments on core `c`, at the specification's types. -/
abbrev argX (c : Dev nD) : FVec Ideal SX .f32 := m ((c : Thread nD τ).loc main_arg0)
abbrev argC (c : Dev nD) : IVec SC 32 := m ((c : Thread nD τ).loc main_arg1)
abbrev argW (c : Dev nD) : FVec Ideal SW .f32 := m ((c : Thread nD τ).loc main_arg2)
abbrev argB (c : Dev nD) : FVec Ideal SB .f32 := m ((c : Thread nD τ).loc main_arg3)

/-- ONE POINT ADDS ITS CONTRIBUTION: the accumulating payload at point `t`, over any previous contents `acc`, is
    `acc` plus the contribution of `t`'s condition at `t`'s rows. -/
theorem point_adds (c : Dev nD) (t : Fin cfg0.N) (acc : Vec Ideal S1024x512 .f32) (p : Fin 1024) (q : Fin 512) :
    k0_pay2 (F := Ideal) (grid0.coords t) (iblk m c 0 t) (iblk m c 1 t) (iblk m c 2 t) (iblk m c 3 t) acc (ix2 p q)
      = acc (ix2 p q) + contrib (argX m c) (argC m c) (argW m c) (argB m c) (condOf t) (rowOf t p) q := by
  refine (pay_apply (grid0.coords t) (iblk m c 0 t) (iblk m c 1 t) (iblk m c 2 t) (iblk m c 3 t) acc p q).trans ?_
  unfold contrib
  rw [bblk_at, coord1]
  refine congrArg (acc (ix2 p q) + ·) (congrArg (max · _) (congrArg (· + _) (Finset.sum_congr rfl fun d _ => ?_)))
  rw [xblk_at, cblk_at, wblk_at]
  rfl

/-- The cleared scratch is zero everywhere. -/
theorem cleared_at (i : S1024x512.Idx) : k0_pay1 (F := Ideal) i = Ideal.ofBits .f32 0x00000000#32 := by
  unfold k0_pay1
  rw [shapeCast_self]
  rfl

/-- What a run starts from. -/
abbrev start : S1024x512.Idx → EReal := fun _ => Ideal.ofBits .f32 0x00000000#32

/-- Point `n`'s addend at a scratch entry (zero past the grid, where it is never used). -/
def addend (c : Dev nD) (n : Nat) (i : S1024x512.Idx) : EReal :=
  if h : n < cfg0.N then contrib (argX m c) (argC m c) (argW m c) (argB m c) (condOf ⟨n, h⟩) (rowOf ⟨n, h⟩ (i 0)) (i 1) else 0

/-- A run's first point leaves zero plus its addend, whatever the scratch held. -/
theorem step_first (c : Dev nD) (n : Nat) (h : n < cfg0.N) (h0 : n % 8 = 0) (acc : Vec Ideal S1024x512 .f32)
    (i : S1024x512.Idx) : scAt0_0 m c n h acc i = start i + addend m c n i := by
  have h1 : ¬n % 8 = 7 := by omega
  obtain ⟨p, q, rfl⟩ : ∃ (p : Fin 1024) (q : Fin 512), i = ix2 p q := ⟨i 0, i 1, eq_ix2 i⟩
  unfold scAt0_0
  rw [dif_pos h0, dif_neg h1, scratch_A, point_adds, cleared_at]
  unfold addend
  rw [dif_pos h]

/-- Every later point of the run leaves what it found plus its addend. -/
theorem step_later (c : Dev nD) (n : Nat) (h : n < cfg0.N) (h0 : ¬n % 8 = 0) (acc : Vec Ideal S1024x512 .f32)
    (i : S1024x512.Idx) : scAt0_0 m c n h acc i = acc i + addend m c n i := by
  obtain ⟨p, q, rfl⟩ : ∃ (p : Fin 1024) (q : Fin 512), i = ix2 p q := ⟨i 0, i 1, eq_ix2 i⟩
  unfold scAt0_0
  rw [dif_neg h0]
  by_cases h1 : n % 8 = 7
  · rw [dif_pos h1, scratch_C, point_adds]
    unfold addend
    rw [dif_pos h]
  · rw [dif_neg h1, scratch_B, point_adds]
    unfold addend
    rw [dif_pos h]

/-- THE SCRATCH AFTER THE LAST POINT OF A RUN: zero plus the run's eight addends. -/
theorem scratch_after (c : Dev nD) (t : Fin cfg0.N) (h7 : t.val % 8 = 7) (i : S1024x512.Idx) :
    (outsAt0 m c t.val t.isLt).2 i = start i + ∑ s ∈ Finset.range 8, addend m c (8 * (t.val / 8) + s) i := by
  rw [soutsAt0_0_eq m c t]
  rw [Pipeline.accAt_add_apply _ _ start (addend m c) (8 * (t.val / 8)) 7
    (fun h i => step_first m c _ h (by omega) _ i)
    (fun n h acc i hb he => step_later m c n h (by omega) acc i)
    (t.val % 8) (by omega) _ i, h7]

/-- The run's eight addends are the eight conditions' contributions at the run's row tile. -/
theorem sum_run (c : Dev nD) (t : Fin cfg0.N) (i : S1024x512.Idx) :
    ∑ s ∈ Finset.range 8, addend m c (8 * (t.val / 8) + s) i
      = ∑ k : Fin 8, contrib (argX m c) (argC m c) (argW m c) (argB m c) k (rowOf t (i 0)) (i 1) := by
  rw [Finset.sum_range]
  refine Finset.sum_congr rfl fun k _ => ?_
  have hN := lt_of_lt_of_eq t.isLt (show cfg0.N = 128 from N_0)
  have hk := k.isLt
  have hlt : 8 * (t.val / 8) + k.val < cfg0.N :=
    lt_of_lt_of_eq (show 8 * (t.val / 8) + k.val < 128 by omega) (show (128 : Nat) = cfg0.N from N_0.symm)
  unfold addend
  rw [dif_pos hlt]
  have e1 : condOf ⟨8 * (t.val / 8) + k.val, hlt⟩ = k :=
    Fin.ext (by show (8 * (t.val / 8) + k.val) % 8 = k.val; omega)
  have e2 : rowOf ⟨8 * (t.val / 8) + k.val, hlt⟩ (i 0) = rowOf t (i 0) :=
    Fin.ext (by show 1024 * ((8 * (t.val / 8) + k.val) / 8) + (i 0).val = 1024 * (t.val / 8) + (i 0).val; omega)
  rw [e1, e2]

end Cert.KernelIdeal.Accum

end
-- ==== Proof.Final.lean ====
/-
  From the scratch to the result array.  The output block is written back only at the last point of each run of
  eight (condition 7), where the body has just copied the scratch into it; so what is written back for row tile `j`
  is rows `1024·j … 1024·j + 1023` of the specification.  The sixteen row tiles tile the array: row `r` lies in
  tile `r / 1024`, whose last point is `8·(r / 1024) + 7`.  Hence the result array ends holding the specification.
-/
import proofs.«136034_j53919019434508_1_alg».proof.Proof.Accum

noncomputable section

namespace Cert.KernelIdeal.Final

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.CondSum Cert.KernelIdeal.Blocks Cert.KernelIdeal.Pieces Cert.KernelIdeal.Accum

variable (m : (ℓ : Loc nD τ sig) → Buf (Elt Ideal) ℓ) (ρ : Dev nD → PrngReg)

/-- The specification of core `c`'s arguments, as contents of the result array. -/
abbrev spec (c : Dev nD) : Buf (Elt Ideal) ((c : Thread nD τ).loc main_v2) :=
  result (argX m c) (argC m c) (argW m c) (argB m c)

/-- At a point that copies out, the output block and the scratch end at the same value. -/
theorem out_eq_scratch (c : Dev nD) (t : Fin cfg0.N) (h0 : ¬t.val % 8 = 0) (h7 : t.val % 8 = 7) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2
      = (outsAt0 m c t.val t.isLt).2 := by
  rw [outsAt0_C m c t h0 h7]
  dsimp only
  rw [out_C, scratch_C]

/-- WHAT A FLUSHING POINT WRITES BACK is its block of the specification. -/
theorem flushed_eq (c : Dev nD) (t : Fin cfg0.N) (hf : (cfg0.win 4).flush t = true) :
    (dats m 0 c).flushed 4 t = ((cfg0.win 4).blk t).view.read (Elt Ideal) (spec m c) := by
  have h7 : t.val % 8 = 7 := (flush0_4 t).mp hf
  have h0 : ¬t.val % 8 = 0 := by omega
  rw [flushed4_C m c t h0 h7, out_eq_scratch m c t h0 h7]
  refine funext fun (y : S1024x512.Idx) => ?_
  show (outsAt0 m c t.val t.isLt).2 y = spec m c (((cfg0.win 4).blk t).view.emb y)
  rw [scratch_after m c t h7 y, sum_run m c t y]
  have e0 : (((cfg0.win 4).blk t).view.emb y) 0 = rowOf t (y 0) :=
    Fin.ext (by show win0_4.index t 0 * 1024 + 1 * (y 0).val = 1024 * (t.val / 8) + (y 0).val; rw [(index_o t).1]; omega)
  have e1 : (((cfg0.win 4).blk t).view.emb y) 1 = y 1 :=
    Fin.ext (by show win0_4.index t 1 * 512 + 1 * (y 1).val = (y 1).val; rw [(index_o t).2]; omega)
  show _ = Ideal.ofBits .f32 0x00000000#32 + ∑ k : Fin 8, contrib (argX m c) (argC m c) (argW m c) (argB m c) k
    ((((cfg0.win 4).blk t).view.emb y) 0) ((((cfg0.win 4).blk t).view.emb y) 1)
  rw [e0, e1]

/-- An entry of the array is in point `t`'s block iff each coordinate is in the block's range on its axis. -/
theorem mem_block (t : Fin cfg0.N) (i : S16384x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v2).slice (win0_4.rect t)).set ↔ _
  rw [View.set_slice_whole, Rect.mem_set_unit]
  exact Iff.rfl

/-- Every entry of the array is in the block of its row tile's last point, which writes back. -/
theorem covered (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  have hlt : 8 * ((i 0).val / 1024) + 7 < cfg0.N :=
    lt_of_lt_of_eq (show 8 * ((i 0).val / 1024) + 7 < 128 by omega) (show (128 : Nat) = cfg0.N from N_0.symm)
  have q0 : win0_4.index ⟨8 * ((i 0).val / 1024) + 7, hlt⟩ 0 = (8 * ((i 0).val / 1024) + 7) / 8 := (index_o _).1
  have q1 : win0_4.index ⟨8 * ((i 0).val / 1024) + 7, hlt⟩ 1 = 0 := (index_o _).2
  refine ⟨⟨8 * ((i 0).val / 1024) + 7, hlt⟩, (flush0_4 _).mpr (by show (8 * ((i 0).val / 1024) + 7) % 8 = 7; omega), ?_⟩
  rw [mem_block]
  intro a
  match a with
  | ⟨0, _⟩ =>
    show win0_4.index ⟨8 * ((i 0).val / 1024) + 7, hlt⟩ 0 * 1024 ≤ (i 0).val ∧ (i 0).val < win0_4.index ⟨8 * ((i 0).val / 1024) + 7, hlt⟩ 0 * 1024 + 1024
    rw [q0]; omega
  | ⟨1, _⟩ =>
    show win0_4.index ⟨8 * ((i 0).val / 1024) + 7, hlt⟩ 1 * 512 ≤ (i 1).val ∧ (i 1).val < win0_4.index ⟨8 * ((i 0).val / 1024) + 7, hlt⟩ 1 * 512 + 512
    rw [q1]; omega

/-- THE RESULT ARRAY after the run is the specification. -/
theorem final (c : Dev nD) : (dats m 0 c).arrAt 4 cfg0.N = spec m c :=
  (dats m 0 c).arrAt_eq_of_cover 4 (spec m c) (flushed_eq m c) covered

/-- The run, read: the result array at the specification, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.lean ====
/-
  Eight per-condition affine maps with a clip at zero, summed.  Each row `n` of `x` carries a condition word; for
  every condition `k` the row is kept when its word is `k` and zeroed otherwise, multiplied by `W[k]`, shifted by
  `b[k]` and clipped below at zero, and the eight clipped rows are added:

      out[n,e] = 0 + ∑ₖ max (∑_d (x[n,d] · [cond[n] = k]) · W[k,d,e] + b[k,e]) 0 .

  The kernel walks a 16 × 8 grid (row tile, condition), keeps a 1024 × 512 accumulator across the eight conditions
  of a row tile — cleared at condition 0, copied to the output block at condition 7 — and adds one condition's
  clipped product per point; the reference builds all eight masked copies of `x`, one batched product, and sums
  over the leading axis.  Over the extended reals the two agree entry by entry: the narrowing of the product's
  factors to a shorter float format is the identity there, the kernel's mask (a comparison bit widened and read as
  a signed integer) and the reference's (the bit read as an unsigned integer) are both 0 or 1, and the kernel's
  running sum `((0 + h₀) + h₁) + … + h₇` is `0 + ∑ₖ hₖ` by associativity alone.  No step uses that the inputs are
  finite, and the condition words are only ever compared, so they may be any words at all.

  Spec.lean states the function; RefValue.lean reads the reference's operations down to it; Payload.lean reads
  one point's accumulating store at an entry; Blocks.lean reads a point's four input blocks as entries of the
  arguments; Pieces.lean says what each kind of point leaves in the accumulator and the output block; Accum.lean
  folds a run of eight points; Final.lean tiles the result array with the sixteen written-back blocks.
-/
import proofs.«136034_j53919019434508_1_alg».proof.Defs
import proofs.«136034_j53919019434508_1_alg».proof.Proof.Gen.Kernel
import proofs.«136034_j53919019434508_1_alg».proof.Proof.Gen.Kernel.Skeleton
import proofs.«136034_j53919019434508_1_alg».proof.Proof.Gen.Kernel.Launch
import proofs.«136034_j53919019434508_1_alg».proof.Proof.Gen.Kernel.Points
import proofs.«136034_j53919019434508_1_alg».proof.Proof.Gen.Kernel.Frame
import proofs.«136034_j53919019434508_1_alg».proof.Proof.Gen.KernelIdeal
import proofs.«136034_j53919019434508_1_alg».proof.Proof.Gen.KernelIdeal.Skeleton
import proofs.«136034_j53919019434508_1_alg».proof.Proof.Gen.KernelIdeal.Launch
import proofs.«136034_j53919019434508_1_alg».proof.Proof.Gen.KernelIdeal.Points
import proofs.«136034_j53919019434508_1_alg».proof.Proof.Gen.KernelIdeal.Frame
import proofs.«136034_j53919019434508_1_alg».proof.Proof.Gen.ReferenceIdeal
import proofs.«136034_j53919019434508_1_alg».proof.Proof.Gen.Pre_finite_inputs
import proofs.«136034_j53919019434508_1_alg».proof.Proof.Gen.KernelIdeal.Value
import proofs.«136034_j53919019434508_1_alg».proof.Proof.Gen.ReferenceIdeal.Run
import proofs.«136034_j53919019434508_1_alg».proof.Proof.Gen.ReferenceIdeal.Read
import proofs.«136034_j53919019434508_1_alg».proof.Proof.RefValue
import proofs.«136034_j53919019434508_1_alg».proof.Proof.Final
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the result array at the specification of the arguments they share. -/
theorem algebraic : Cert.algebraic_KernelIdeal_ReferenceIdeal := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.stage_eq_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
